-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .f32⟩
  | .hbm, ⟨35, _⟩ => ⟨S100000x64, .f32⟩
  | .hbm, ⟨36, _⟩ => ⟨S1250000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S_, .f32⟩
  | .hbm, ⟨54, _⟩ => ⟨S100000x64, .f32⟩
  | .hbm, ⟨55, _⟩ => ⟨S1250000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S_, .f32⟩
  | .hbm, ⟨58, _⟩ => ⟨S100000x64, .f32⟩
  | .hbm, ⟨59, _⟩ => ⟨S1250000x1, .i32⟩
  | .hbm, ⟨60, _⟩ => ⟨S100000x64, .f32⟩
  | .hbm, ⟨61, _⟩ => ⟨S_, .f32⟩
  | .hbm, ⟨62, _⟩ => ⟨S1250000, .f32⟩
  | .hbm, ⟨63, _⟩ => ⟨S_, .f32⟩
  | .hbm, ⟨64, _⟩ => ⟨S100000, .f32⟩
  | .hbm, ⟨65, _⟩ => ⟨S1250000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KBody.lean ====
/-
  What one grid step of either pallas_call computes, read at one entry of its 5000 × 64 output block.

  Both kernel bodies load a block `a` of the aggregated mean and a block `b` of the node features (5000 rows each), the two
  64 × 64 weight matrices `c`, `d` and the 1 × 64 bias row `e`, round everything to bf16 (the identity on the extended
  reals), and form  a·c + e + b·d  with two matrix products into a zero accumulator; the first call then takes the
  positive part. At row `p`, column `q` that is

      (∑ₖ a[p,k] · c[k,q]) + e[0,q] + ∑ₖ b[p,k] · d[k,q]

  — each matrix product a plain sum over the one contracted axis (64 long), re-indexed by that axis's coordinate.
-/
import proofs.«110972_j88682484727895_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The matrix product's operand indices, axis by axis -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] × [64,64] product into the zero accumulator, at row `p`, column `q`: the sum over the contracted
    coordinate `k` of left[p,k] · right[k,q]. -/
theorem mm_apply {φ₁ φ₂ : FTy} (y0 : FVec Ideal S5000x64 φ₁) (y1 : FVec Ideal S64x64 φ₂) (p : Fin 5000) (q : Fin 64) :
    matmul dot_S5000x64_S64x64_S5000x64_1_0_0_1_n_n none y0 y1 (constant S5000x64 .f32 0x00000000#32) (ix2 p q)
      = ∑ k : Fin 64, y0 (ix2 p k) * y1 (ix2 k q) := by
  show FloatOps.matmul dot_S5000x64_S64x64_S5000x64_1_0_0_1_n_n none y0 y1 (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- a·c + e + b·d at row `p`, column `q`. -/
theorem affine_apply (a b : FVec Ideal S5000x64 .f32) (c d : FVec Ideal S64x64 .f32) (e : FVec Ideal S1x64 .f32)
    (p : Fin 5000) (q : Fin 64) :
    addf (addf (matmul dot_S5000x64_S64x64_S5000x64_1_0_0_1_n_n none (truncf .bf16 a bitsLt_bf16_f32) (truncf .bf16 c bitsLt_bf16_f32) (constant S5000x64 .f32 0x00000000#32))
        (broadcastTo S5000x64 e broadcasts_S1x64_S5000x64))
      (matmul dot_S5000x64_S64x64_S5000x64_1_0_0_1_n_n none (truncf .bf16 b bitsLt_bf16_f32) (truncf .bf16 d bitsLt_bf16_f32) (constant S5000x64 .f32 0x00000000#32)) (ix2 p q)
      = (∑ k : Fin 64, a (ix2 p k) * c (ix2 k q)) + e (ix2 (0 : Fin 1) q) + ∑ k : Fin 64, b (ix2 p k) * d (ix2 k q) := by
  rw [addf_apply, addf_apply, mm_apply, mm_apply, broadcastTo_1b_ab_apply]
  rfl

/-- The first call's stored value at row `p`, column `q`: the positive part of a·c + e + b·d. -/
theorem pay0_apply (a b : Vec Ideal S5000x64 .f32) (c d : Vec Ideal S64x64 .f32) (e : Vec Ideal S1x64 .f32)
    (p : Fin 5000) (q : Fin 64) :
    k0_pay1 (F := Ideal) a b c d e (ix2 p q)
      = max ((∑ k : Fin 64, a (ix2 p k) * c (ix2 k q)) + e (ix2 (0 : Fin 1) q) + ∑ k : Fin 64, b (ix2 p k) * d (ix2 k q)) 0 := by
  unfold k0_pay1
  simp only [shapeCast_self]
  rw [maximumf_apply, affine_apply, broadcast_apply]
  show max _ (Ideal.ofBits .f32 0x00000000#32) = _
  rw [Ideal.ofBits_zero_f32]

/-- The second call's stored value at row `p`, column `q`: a·c + e + b·d. -/
theorem pay1_apply (a b : Vec Ideal S5000x64 .f32) (c d : Vec Ideal S64x64 .f32) (e : Vec Ideal S1x64 .f32)
    (p : Fin 5000) (q : Fin 64) :
    k1_pay1 (F := Ideal) a b c d e (ix2 p q)
      = (∑ k : Fin 64, a (ix2 p k) * c (ix2 k q)) + e (ix2 (0 : Fin 1) q) + ∑ k : Fin 64, b (ix2 p k) * d (ix2 k q) := by
  unfold k1_pay1
  simp only [shapeCast_self]
  rw [affine_apply]

end Cert.KernelIdeal.Body

end
-- ==== Proof.SageSpec.lean ====
/-
  One layer of a mean-aggregating graph convolution, read at one entry, and the one law of the extended reals that the two
  programs differ by.

  A layer takes the aggregated neighbour mean `mean` and the node features `x` (both 100000 × 64), two 64 × 64 weight
  matrices already transposed (`wl`, `wr`) and a bias `b` (one entry per feature), and returns at node `r` and feature `j`

      (∑ₖ mean[r,k] · wl[k,j]) + b[j] + ∑ₖ x[r,k] · wr[k,j]

  with the additions in exactly this order. `lin` is that array, `linRelu` its positive part.

  The law: the kernel multiplies the aggregated sums by the reciprocal `1 / max(count, 1)`, the reference divides them by
  `max(count, 1)`. On the extended reals `a / c` IS `a · c⁻¹` whenever `c ≠ 0`, and `1 / c` is `c⁻¹`, so the two
  agree at every `a`, infinite ones included; and `max(count, 1) ≥ 1` is never zero, whatever `count` is.
-/
import Idealize.ShloMosaic.PureOps.Ideal
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.Sage

abbrev Nodes : Shape := ⟨2, ![100000, 64]⟩
abbrev Wts : Shape := ⟨2, ![64, 64]⟩
abbrev Cnt : Shape := ⟨1, ![100000]⟩

/-- The layer's affine part at node `r`, feature `j`. -/
def linAt (mean x : FVec Ideal Nodes .f32) (wl wr : FVec Ideal Wts .f32) (b : Fin 64 → EReal)
    (r : Fin 100000) (j : Fin 64) : EReal :=
  (∑ k : Fin 64, mean (ix2 r k) * wl (ix2 k j)) + b j + ∑ k : Fin 64, x (ix2 r k) * wr (ix2 k j)

/-- The layer without activation, as an array. -/
def lin (mean x : FVec Ideal Nodes .f32) (wl wr : FVec Ideal Wts .f32) (b : Fin 64 → EReal) :
    FVec Ideal Nodes .f32 := fun i => linAt mean x wl wr b (i 0) (i 1)

/-- The layer followed by the positive part. -/
def linRelu (mean x : FVec Ideal Nodes .f32) (wl wr : FVec Ideal Wts .f32) (b : Fin 64 → EReal) :
    FVec Ideal Nodes .f32 := fun i => max (linAt mean x wl wr b (i 0) (i 1)) 0

/-- Multiplying by the reciprocal of a nonzero extended real is dividing by it. -/
theorem mul_recip (a c : EReal) (hc : c ≠ 0) : a * Ideal.div 1 c = Ideal.div a c := by
  unfold Ideal.div
  rw [if_neg hc, if_neg hc, one_mul]

/-- `max(c, 1)` is never zero. -/
theorem max_one_ne_zero (c : EReal) : max c 1 ≠ 0 := by
  have h : (0 : EReal) < max c 1 := lt_of_lt_of_le zero_lt_one (le_max_right c 1)
  exact ne_of_gt h

/-- The mean, both ways. `B` stands for any re-indexing of a per-node vector to the node × feature array (the two
    broadcasts the programs apply: entry `i` of `B v` is entry `g i` of `v`): a re-indexing commutes with the pointwise
    quotient, so the kernel's product with the broadcast reciprocal is the reference's quotient by the broadcast divisor. -/
theorem mean_mul_eq_div (B : FVec Ideal Cnt .f32 → FVec Ideal Nodes .f32) (g : Nodes.Idx → Cnt.Idx)
    (hB : ∀ v i, B v i = v (g i)) (A : FVec Ideal Nodes .f32) (one cnt : FVec Ideal Cnt .f32) (h1 : ∀ r, one r = 1) :
    mulf A (B (Host.divf one (maximumf cnt one))) = Host.divf A (B (maximumf cnt one)) := by
  funext i
  show A i * B (Host.divf one (maximumf cnt one)) i = Ideal.div (A i) (B (maximumf cnt one) i)
  rw [hB, hB]
  show A i * Ideal.div (one (g i)) (max (cnt (g i)) (one (g i))) = Ideal.div (A i) (max (cnt (g i)) (one (g i)))
  rw [h1 (g i)]
  exact mul_recip _ _ (max_one_ne_zero _)

end Cert.Sage

end
-- ==== Proof.KRegion0.lean ====
/-
  One pallas_call's result array as ONE function of the arrays the call is entered with.

  The call runs its body at twenty grid points; point `t` reads rows 5000·t … 5000·t + 4999 of the mean and of the node
  features, the whole of both weight matrices and of the bias row, and writes rows 5000·t … of the result. Since the body's
  value at row `p`, column `q` depends on row `p` of the two row-blocked operands only, what point `t` writes is block `t`
  of a single whole-array function (the layer of SageSpec.lean, as this call's body computes it), and the twenty
  blocks tile the array; so the array ends holding that function. The arrays are whatever the call finds (`V`): the
  host operations that produced them are read elsewhere.
-/
import proofs.«110972_j88682484727895_1_alg».proof.Proof.Gen.KernelIdeal.Frame
import proofs.«110972_j88682484727895_1_alg».proof.Proof.KBody
import proofs.«110972_j88682484727895_1_alg».proof.Proof.SageSpec
import Idealize.ShloMosaic.Lib.Pipeline.Value

set_option maxRecDepth 16384

noncomputable section

open scoped BigOperators

namespace Cert.KernelIdeal.Region0

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at grid point `t`: the three row-blocked windows (the mean, the features, the result)
    sit at block row `t`; the two weight matrices and the bias row are one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block row `t` is row `5000·t + p` of the array. -/
def row0 (t : Fin cfg0.N) (p : Fin 5000) : Fin 100000 :=
  ⟨5000 * t.val + p.val, by have h : t.val < 20 := lt_of_lt_of_eq t.isLt N_0; have := p.isLt; omega⟩

/-- The mean window's block at `t` holds rows `5000·t …` of its array. -/
theorem blk0_0 (c : Dev nD) (t : Fin cfg0.N) (p : Fin 5000) (k : Fin 64) :
    (iblk0 V c 0 t : Vec Ideal S5000x64 .f32) (ix2 p k) = (V c main_v24 : S100000x64.Idx → EReal) (ix2 (row0 t p) k) := by
  obtain ⟨e0, e1, -⟩ := idx_facts0 t
  unfold iblk0
  rw [View.read_apply]
  show (V c main_v24 : S100000x64.Idx → EReal) _ = _
  refine congrArg (V c main_v24 : S100000x64.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The feature window's block at `t` holds the same rows of its array. -/
theorem blk0_1 (c : Dev nD) (t : Fin cfg0.N) (p : Fin 5000) (k : Fin 64) :
    (iblk0 V c 1 t : Vec Ideal S5000x64 .f32) (ix2 p k) = (V c main_arg0 : S100000x64.Idx → EReal) (ix2 (row0 t p) k) := by
  obtain ⟨-, -, e0, e1, -⟩ := idx_facts0 t
  unfold iblk0
  rw [View.read_apply]
  show (V c main_arg0 : S100000x64.Idx → EReal) _ = _
  refine congrArg (V c main_arg0 : S100000x64.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- The first weight window's one block is its whole array. -/
theorem blk0_2 (c : Dev nD) (t : Fin cfg0.N) (k q : Fin 64) :
    (iblk0 V c 2 t : Vec Ideal S64x64 .f32) (ix2 k q) = (V c main_v25 : S64x64.Idx → EReal) (ix2 k q) := by
  obtain ⟨-, -, -, -, e0, e1, -⟩ := idx_facts0 t
  unfold iblk0
  rw [View.read_apply]
  show (V c main_v25 : S64x64.Idx → EReal) _ = _
  refine congrArg (V c main_v25 : S64x64.Idx → EReal) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The bias window's one block is its whole row. -/
theorem blk0_3 (c : Dev nD) (t : Fin cfg0.N) (q : Fin 64) :
    (iblk0 V c 3 t : Vec Ideal S1x64 .f32) (ix2 (0 : Fin 1) q) = (V c main_v27 : S1x64.Idx → EReal) (ix2 (0 : Fin 1) q) := by
  obtain ⟨-, -, -, -, -, -, e0, e1, -⟩ := idx_facts0 t
  unfold iblk0
  rw [View.read_apply]
  show (V c main_v27 : S1x64.Idx → EReal) _ = _
  refine congrArg (V c main_v27 : S1x64.Idx → EReal) (funext fun a => Fin.ext ?_)
  match a with
  | ⟨0, _⟩ => show win0_3.index t (0 : Fin 2) * 1 + 1 * 0 = 0; rw [e0]
  | ⟨1, _⟩ => show win0_3.index t (1 : Fin 2) * 64 + 1 * q.val = q.val; rw [e1]; omega

/-- The second weight window's one block is its whole array. -/
theorem blk0_4 (c : Dev nD) (t : Fin cfg0.N) (k q : Fin 64) :
    (iblk0 V c 4 t : Vec Ideal S64x64 .f32) (ix2 k q) = (V c main_v26 : S64x64.Idx → EReal) (ix2 k q) := by
  obtain ⟨-, -, -, -, -, -, -, -, e0, e1, -⟩ := idx_facts0 t
  unfold iblk0
  rw [View.read_apply]
  show (V c main_v26 : S64x64.Idx → EReal) _ = _
  refine congrArg (V c main_v26 : S64x64.Idx → EReal) (funext fun a => Fin.ext ?_)
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-- What the call leaves in its result array, as one function of the arrays it is entered with. -/
def G0 (c : Dev nD) : S100000x64.Idx → EReal :=
  Cert.Sage.linRelu (V c main_v24 : S100000x64.Idx → EReal) (V c main_arg0 : S100000x64.Idx → EReal) (V c main_v25 : S64x64.Idx → EReal)
    (V c main_v26 : S64x64.Idx → EReal) (fun j => (V c main_v27 : S1x64.Idx → EReal) (ix2 (0 : Fin 1) j))

/-- What grid point `t` writes back is block `t` of that function. -/
theorem flushed0 (c : Dev nD) (t : Fin cfg0.N) :
    (dat0 V c).flushed 5 t = ((cfg0.win 5).blk t).view.read (Elt Ideal) (G0 V c) := by
  obtain ⟨-, -, -, -, -, -, -, -, -, -, e0, e1⟩ := idx_facts0 t
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hemb : ((cfg0.win 5).blk t).view.emb (ix2 p q) = (ix2 (row0 t p) q : S100000x64.Idx) := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  rw [View.read_apply, hemb]
  refine (pay0_apply (iblk0 V c 0 t) (iblk0 V c 1 t) (iblk0 V c 2 t) (iblk0 V c 4 t) (iblk0 V c 3 t) p q).trans ?_
  rw [blk0_3 V c t q]
  simp only [blk0_0 V c t p, blk0_1 V c t p, blk0_2 V c t, blk0_4 V c t]
  rfl

/-- An index lies in point `t`'s result block iff each coordinate lies in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- The twenty result blocks tile the array: row `r` lies in block row `r / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  obtain ⟨-, -, -, -, -, -, -, -, -, -, e0, e1⟩ := idx_facts0 (⟨(i 0).val / 5000, by rw [hN]; omega⟩ : Fin cfg0.N)
  rw [mem_blk0]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- The result array after the call. -/
theorem final0 (c : Dev nD) : (dat0 V c).arrAt 5 cfg0.N = G0 V c :=
  (dat0 V c).arrAt_eq_of_cover 5 (G0 V c) (fun t _ => flushed0 V c t) cover0

end Cert.KernelIdeal.Region0

end
-- ==== Proof.KRegion1.lean ====
/-
  One pallas_call's result array as ONE function of the arrays the call is entered with.

  The call runs its body at twenty grid points; point `t` reads rows 5000·t … 5000·t + 4999 of the mean and of the node
  features, the whole of both weight matrices and of the bias row, and writes rows 5000·t … of the result. Since the body's
  value at row `p`, column `q` depends on row `p` of the two row-blocked operands only, what point `t` writes is block `t`
  of a single whole-array function (the layer of SageSpec.lean, as this call's body computes it), and the twenty
  blocks tile the array; so the array ends holding that function. The arrays are whatever the call finds (`V`): the
  host operations that produced them are read elsewhere.
-/
import proofs.«110972_j88682484727895_1_alg».proof.Proof.Gen.KernelIdeal.Frame
import proofs.«110972_j88682484727895_1_alg».proof.Proof.KBody
import proofs.«110972_j88682484727895_1_alg».proof.Proof.SageSpec
import Idealize.ShloMosaic.Lib.Pipeline.Value

set_option maxRecDepth 16384

noncomputable section

open scoped BigOperators

namespace Cert.KernelIdeal.Region1

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at grid point `t`: the three row-blocked windows (the mean, the features, the result)
    sit at block row `t`; the two weight matrices and the bias row are one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block row `t` is row `5000·t + p` of the array. -/
def row1 (t : Fin cfg1.N) (p : Fin 5000) : Fin 100000 :=
  ⟨5000 * t.val + p.val, by have h : t.val < 20 := lt_of_lt_of_eq t.isLt N_1; have := p.isLt; omega⟩

/-- The mean window's block at `t` holds rows `5000·t …` of its array. -/
theorem blk1_0 (c : Dev nD) (t : Fin cfg1.N) (p : Fin 5000) (k : Fin 64) :
    (iblk1 V c 0 t : Vec Ideal S5000x64 .f32) (ix2 p k) = (V c main_v40 : S100000x64.Idx → EReal) (ix2 (row1 t p) k) := by
  obtain ⟨e0, e1, -⟩ := idx_facts1 t
  unfold iblk1
  rw [View.read_apply]
  show (V c main_v40 : S100000x64.Idx → EReal) _ = _
  refine congrArg (V c main_v40 : S100000x64.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- The feature window's block at `t` holds the same rows of its array. -/
theorem blk1_1 (c : Dev nD) (t : Fin cfg1.N) (p : Fin 5000) (k : Fin 64) :
    (iblk1 V c 1 t : Vec Ideal S5000x64 .f32) (ix2 p k) = (V c main_v28 : S100000x64.Idx → EReal) (ix2 (row1 t p) k) := by
  obtain ⟨-, -, e0, e1, -⟩ := idx_facts1 t
  unfold iblk1
  rw [View.read_apply]
  show (V c main_v28 : S100000x64.Idx → EReal) _ = _
  refine congrArg (V c main_v28 : S100000x64.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- The first weight window's one block is its whole array. -/
theorem blk1_2 (c : Dev nD) (t : Fin cfg1.N) (k q : Fin 64) :
    (iblk1 V c 2 t : Vec Ideal S64x64 .f32) (ix2 k q) = (V c main_v41 : S64x64.Idx → EReal) (ix2 k q) := by
  obtain ⟨-, -, -, -, e0, e1, -⟩ := idx_facts1 t
  unfold iblk1
  rw [View.read_apply]
  show (V c main_v41 : S64x64.Idx → EReal) _ = _
  refine congrArg (V c main_v41 : S64x64.Idx → EReal) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The bias window's one block is its whole row. -/
theorem blk1_3 (c : Dev nD) (t : Fin cfg1.N) (q : Fin 64) :
    (iblk1 V c 3 t : Vec Ideal S1x64 .f32) (ix2 (0 : Fin 1) q) = (V c main_v43 : S1x64.Idx → EReal) (ix2 (0 : Fin 1) q) := by
  obtain ⟨-, -, -, -, -, -, e0, e1, -⟩ := idx_facts1 t
  unfold iblk1
  rw [View.read_apply]
  show (V c main_v43 : S1x64.Idx → EReal) _ = _
  refine congrArg (V c main_v43 : S1x64.Idx → EReal) (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- The second weight window's one block is its whole array. -/
theorem blk1_4 (c : Dev nD) (t : Fin cfg1.N) (k q : Fin 64) :
    (iblk1 V c 4 t : Vec Ideal S64x64 .f32) (ix2 k q) = (V c main_v42 : S64x64.Idx → EReal) (ix2 k q) := by
  obtain ⟨-, -, -, -, -, -, -, -, e0, e1, -⟩ := idx_facts1 t
  unfold iblk1
  rw [View.read_apply]
  show (V c main_v42 : S64x64.Idx → EReal) _ = _
  refine congrArg (V c main_v42 : S64x64.Idx → EReal) (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- What the call leaves in its result array, as one function of the arrays it is entered with. -/
def G1 (c : Dev nD) : S100000x64.Idx → EReal :=
  Cert.Sage.lin (V c main_v40 : S100000x64.Idx → EReal) (V c main_v28 : S100000x64.Idx → EReal) (V c main_v41 : S64x64.Idx → EReal)
    (V c main_v42 : S64x64.Idx → EReal) (fun j => (V c main_v43 : S1x64.Idx → EReal) (ix2 (0 : Fin 1) j))

/-- What grid point `t` writes back is block `t` of that function. -/
theorem flushed1 (c : Dev nD) (t : Fin cfg1.N) :
    (dat1 V c).flushed 5 t = ((cfg1.win 5).blk t).view.read (Elt Ideal) (G1 V c) := by
  obtain ⟨-, -, -, -, -, -, -, -, -, -, e0, e1⟩ := idx_facts1 t
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hemb : ((cfg1.win 5).blk t).view.emb (ix2 p q) = (ix2 (row1 t p) q : S100000x64.Idx) := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [View.read_apply, hemb]
  refine (pay1_apply (iblk1 V c 0 t) (iblk1 V c 1 t) (iblk1 V c 2 t) (iblk1 V c 4 t) (iblk1 V c 3 t) p q).trans ?_
  rw [blk1_3 V c t q]
  simp only [blk1_0 V c t p, blk1_1 V c t p, blk1_2 V c t, blk1_4 V c t]
  rfl

/-- An index lies in point `t`'s result block iff each coordinate lies in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- The twenty result blocks tile the array: row `r` lies in block row `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  obtain ⟨-, -, -, -, -, -, -, -, -, -, e0, e1⟩ := idx_facts1 (⟨(i 0).val / 5000, by rw [hN]; omega⟩ : Fin cfg1.N)
  rw [mem_blk1]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- The result array after the call. -/
theorem final1 (c : Dev nD) : (dat1 V c).arrAt 5 cfg1.N = G1 V c :=
  (dat1 V c).arrAt_eq_of_cover 5 (G1 V c) (fun t _ => flushed1 V c t) cover1

end Cert.KernelIdeal.Region1

end
-- ==== Proof.KHost.lean ====
/-
  The host side of the kernel's program, read as pure functions of the arguments.

  Around its two pallas_calls the program computes, from the edge list `e` (2 × 1250000 integers): the source and the
  destination of every edge; the in-degree count `cnt` of every node (a scatter-add of ones at the destinations); the
  reciprocal `1 / max(cnt, 1)`; and for a node-feature array `z` its aggregate (a gather of `z` at the sources — negative
  indices wrapped — scatter-added at the destinations) times that reciprocal broadcast along the features: the neighbour
  mean `meanOf`. The first call is entered with `meanOf` of the node features, the features, and the first layer's
  transposed weights and reshaped bias; the second with `meanOf` of the first call's result, that result, and the second
  layer's weights and bias. Each lemma below reads one buffer at one boundary of @main; the gather and the scatter-adds
  stay closed (the reference applies the same ones).
-/
import proofs.«110972_j88682484727895_1_alg».proof.Proof.Gen.KernelIdeal.Frame
import proofs.«110972_j88682484727895_1_alg».proof.Proof.KRegion0
import proofs.«110972_j88682484727895_1_alg».proof.Proof.KRegion1
import Idealize.ShloMosaic.Lib.StableHlo.Run

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo Idealize.ShloMosaic.ValueIdx

/-! ## The pure terms -/

/-- Every edge's source node. -/
def srcIdx (e : IVec S2x1250000 32) : IVec S1250000 32 :=
  shapeCast _ (extractStridedSlice S1x1250000 ![0, 0] e slices_S2x1250000_S1x1250000_0_0) shapeCasts_S1x1250000_S1250000

/-- Every edge's destination node. -/
def dstIdx (e : IVec S2x1250000 32) : IVec S1250000 32 :=
  shapeCast _ (extractStridedSlice S1x1250000 ![1, 0] e slices_S2x1250000_S1x1250000_1_0) shapeCasts_S1x1250000_S1250000

/-- The vector of ones, one per node. -/
def onesN : FVec Ideal S100000 .f32 :=
  broadcastInDim S100000 ![] bcast_S_S100000 (constant (F := Ideal) S_ .f32 0x3F800000#32)

/-- Every node's in-degree: ones scatter-added at the destinations. -/
def cnt (dst : IVec S1250000 32) : FVec Ideal S100000 .f32 :=
  Host.scatterAdd (F := Ideal) scatter_S100000_S1250000x1_S1250000_n_0_0_1
    (broadcastInDim S100000 ![] bcast_S_S100000 (constant (F := Ideal) S_ .f32 0x00000000#32))
    (broadcastInDim S1250000x1 ![0] bcast_S1250000_S1250000x1_0 dst)
    (broadcastInDim S1250000 ![] bcast_S_S1250000 (constant (F := Ideal) S_ .f32 0x3F800000#32))

/-- `1 / max(cnt, 1)`, as a column. -/
def invCol (dst : IVec S1250000 32) : FVec Ideal S100000x1 .f32 :=
  broadcastInDim S100000x1 ![0] bcast_S100000_S100000x1_0 (Host.divf (F := Ideal) onesN (maximumf (F := Ideal) (cnt dst) onesN))

/-- The aggregate of `z`: its rows gathered at the sources (a negative index wrapped by the node count) and
    scatter-added at the destinations. -/
def aggOf (src dst : IVec S1250000 32) (z : FVec Ideal S100000x64 .f32) :
    FVec Ideal S100000x64 .f32 :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (Host.gather gather_S100000x64_S1250000x1_S1250000x64_1_0_n_n_0_1_164 z
      (broadcastInDim S1250000x1 ![0] bcast_S1250000_S1250000x1_0
        (select (cmpi .slt src (broadcastInDim S1250000 ![] bcast_S_S1250000 (constantI S_ 32 0#32)))
          (addi src (broadcastInDim S1250000 ![] bcast_S_S1250000 (constantI S_ 32 100000#32))) src)))

/-- The neighbour mean as the kernel's program forms it: the aggregate times the broadcast reciprocal. -/
def meanOf (src dst : IVec S1250000 32) (inv : FVec Ideal S100000x1 .f32)
    (z : FVec Ideal S100000x64 .f32) : FVec Ideal S100000x64 .f32 :=
  mulf (F := Ideal) (aggOf src dst z) (broadcastInDim S100000x64 ![0, 1] bcast_S100000x1_S100000x64_0_1 inv)

/-- A weight matrix transposed. -/
def tr (w : FVec Ideal S64x64 .f32) : FVec Ideal S64x64 .f32 :=
  transpose S64x64 [1, 0] w transposes_S64x64_S64x64_1_0

/-- A bias vector as a 1 × 64 row. -/
def rowOf (b : FVec Ideal S64 .f32) : FVec Ideal S1x64 .f32 :=
  shapeCast _ b shapeCasts_S64_S1x64

variable (m : (ℓ : Loc nD τ sig) → Buf (Elt Ideal) ℓ) (ρ : Dev nD → PrngReg)

/-! ## At the first call's entry (after the first stretch of host operations) -/

theorem W1_v1 (c : Dev nD) : W1 m ρ c (Proc.devRef .tc main_v1) = srcIdx (m ((c.tc : Thread nD τ).loc main_arg1)) := by
  show StableHlo.after hostOps0 (W0 m ρ c) (Proc.devRef .tc main_v1) = _
  after_results_simp
  rfl

theorem W1_v3 (c : Dev nD) : W1 m ρ c (Proc.devRef .tc main_v3) = dstIdx (m ((c.tc : Thread nD τ).loc main_arg1)) := by
  show StableHlo.after hostOps0 (W0 m ρ c) (Proc.devRef .tc main_v3) = _
  after_results_simp
  rfl

theorem W1_v12 (c : Dev nD) : W1 m ρ c (Proc.devRef .tc main_v12) = invCol (dstIdx (m ((c.tc : Thread nD τ).loc main_arg1))) := by
  show StableHlo.after hostOps0 (W0 m ρ c) (Proc.devRef .tc main_v12) = _
  after_results_simp
  rfl

theorem W1_v24 (c : Dev nD) : W1 m ρ c (Proc.devRef .tc main_v24)
    = meanOf (srcIdx (m ((c.tc : Thread nD τ).loc main_arg1))) (dstIdx (m ((c.tc : Thread nD τ).loc main_arg1)))
        (invCol (dstIdx (m ((c.tc : Thread nD τ).loc main_arg1)))) (m ((c.tc : Thread nD τ).loc main_arg0)) := by
  show StableHlo.after hostOps0 (W0 m ρ c) (Proc.devRef .tc main_v24) = _
  after_results_simp
  rfl

theorem W1_v25 (c : Dev nD) : W1 m ρ c (Proc.devRef .tc main_v25) = tr (m ((c.tc : Thread nD τ).loc main_arg2)) := by
  show StableHlo.after hostOps0 (W0 m ρ c) (Proc.devRef .tc main_v25) = _
  after_results_simp
  rfl

theorem W1_v26 (c : Dev nD) : W1 m ρ c (Proc.devRef .tc main_v26) = tr (m ((c.tc : Thread nD τ).loc main_arg4)) := by
  show StableHlo.after hostOps0 (W0 m ρ c) (Proc.devRef .tc main_v26) = _
  after_results_simp
  rfl

theorem W1_v27 (c : Dev nD) : W1 m ρ c (Proc.devRef .tc main_v27) = rowOf (m ((c.tc : Thread nD τ).loc main_arg3)) := by
  show StableHlo.after hostOps0 (W0 m ρ c) (Proc.devRef .tc main_v27) = _
  after_results_simp
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp

theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp

theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp

theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp

/-! ## At the first call's exit -/

/-- The first call's result array: the first layer with its positive part, of the arrays the call was entered with. -/
theorem W2_v28 (c : Dev nD) : W2 m ρ c (Proc.devRef .tc main_v28) = Region0.G0 (V1 m ρ) c :=
  (W2_arr m ρ c 5).trans (Region0.final0 (V1 m ρ) c)

theorem W2_v1 (c : Dev nD) : W2 m ρ c (Proc.devRef .tc main_v1) = srcIdx (m ((c.tc : Thread nD τ).loc main_arg1)) :=
  (W2_of_ne m ρ c main_v1 (by decide)).trans (W1_v1 m ρ c)
theorem W2_v3 (c : Dev nD) : W2 m ρ c (Proc.devRef .tc main_v3) = dstIdx (m ((c.tc : Thread nD τ).loc main_arg1)) :=
  (W2_of_ne m ρ c main_v3 (by decide)).trans (W1_v3 m ρ c)
theorem W2_v12 (c : Dev nD) : W2 m ρ c (Proc.devRef .tc main_v12) = invCol (dstIdx (m ((c.tc : Thread nD τ).loc main_arg1))) :=
  (W2_of_ne m ρ c main_v12 (by decide)).trans (W1_v12 m ρ c)
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)
theorem W2_arg7 (c : Dev nD) : W2 m ρ c (Proc.devRef .tc main_arg7) = (m ((c.tc : Thread nD τ).loc main_arg7)) :=
  (W2_of_ne m ρ c main_arg7 (by decide)).trans (W1_arg7 m ρ c)

/-- The first layer's result as a function of the arguments. -/
def hidden (a0 : FVec Ideal S100000x64 .f32) (a1 : IVec S2x1250000 32)
    (a2 : FVec Ideal S64x64 .f32) (a3 : FVec Ideal S64 .f32)
    (a4 : FVec Ideal S64x64 .f32) : FVec Ideal S100000x64 .f32 :=
  Cert.Sage.linRelu (meanOf (srcIdx a1) (dstIdx a1) (invCol (dstIdx a1)) a0) a0 (tr a2) (tr a4)
    (fun j => rowOf a3 (ix2 (0 : Fin 1) j))

theorem G0_V1 (c : Dev nD) : Region0.G0 (V1 m ρ) c
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Region0.G0 hidden
  show Cert.Sage.linRelu (W1 m ρ c (Proc.devRef .tc main_v24)) (W1 m ρ c (Proc.devRef .tc main_arg0)) (W1 m ρ c (Proc.devRef .tc main_v25))
    (W1 m ρ c (Proc.devRef .tc main_v26)) (fun j => (W1 m ρ c (Proc.devRef .tc main_v27) : S1x64.Idx → EReal) (ix2 (0 : Fin 1) j)) = _
  rw [W1_v24, W1_arg0, W1_v25, W1_v26, W1_v27]

/-! ## At the second call's entry (after the second stretch of host operations) -/

theorem W3_v40 (c : Dev nD) : W3 m ρ c (Proc.devRef .tc main_v40)
    = meanOf (W2 m ρ c (Proc.devRef .tc main_v1)) (W2 m ρ c (Proc.devRef .tc main_v3)) (W2 m ρ c (Proc.devRef .tc main_v12))
        (W2 m ρ c (Proc.devRef .tc main_v28)) := by
  show StableHlo.after hostOps1 (W2 m ρ c) (Proc.devRef .tc main_v40) = _
  after_results_simp
  rfl

theorem W3_v28 (c : Dev nD) : W3 m ρ c (Proc.devRef .tc main_v28) = W2 m ρ c (Proc.devRef .tc main_v28) := by
  show StableHlo.after hostOps1 (W2 m ρ c) (Proc.devRef .tc main_v28) = _
  after_results_simp

theorem W3_v41 (c : Dev nD) : W3 m ρ c (Proc.devRef .tc main_v41) = tr (W2 m ρ c (Proc.devRef .tc main_arg5)) := by
  show StableHlo.after hostOps1 (W2 m ρ c) (Proc.devRef .tc main_v41) = _
  after_results_simp
  rfl

theorem W3_v42 (c : Dev nD) : W3 m ρ c (Proc.devRef .tc main_v42) = tr (W2 m ρ c (Proc.devRef .tc main_arg7)) := by
  show StableHlo.after hostOps1 (W2 m ρ c) (Proc.devRef .tc main_v42) = _
  after_results_simp
  rfl

theorem W3_v43 (c : Dev nD) : W3 m ρ c (Proc.devRef .tc main_v43) = rowOf (W2 m ρ c (Proc.devRef .tc main_arg6)) := by
  show StableHlo.after hostOps1 (W2 m ρ c) (Proc.devRef .tc main_v43) = _
  after_results_simp
  rfl

/-! ## The program's result -/

/-- The result of the kernel's program as a function of the arguments: the second layer of the first layer's result. -/
def out (a0 : FVec Ideal S100000x64 .f32) (a1 : IVec S2x1250000 32)
    (a2 : FVec Ideal S64x64 .f32) (a3 : FVec Ideal S64 .f32)
    (a4 a5 : FVec Ideal S64x64 .f32) (a6 : FVec Ideal S64 .f32)
    (a7 : FVec Ideal S64x64 .f32) : FVec Ideal S100000x64 .f32 :=
  Cert.Sage.lin (meanOf (srcIdx a1) (dstIdx a1) (invCol (dstIdx a1)) (hidden a0 a1 a2 a3 a4)) (hidden a0 a1 a2 a3 a4) (tr a5) (tr a7)
    (fun j => rowOf a6 (ix2 (0 : Fin 1) j))

/-- The result array at the last boundary of @main is `out` of the arguments. -/
theorem W4_v44 (c : Dev nD) : W4 m ρ c (Proc.devRef .tc main_v44)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine ((W4_arr m ρ c 5).trans (Region1.final1 (V3 m ρ) c)).trans ?_
  unfold Region1.G1 out
  show Cert.Sage.lin (W3 m ρ c (Proc.devRef .tc main_v40)) (W3 m ρ c (Proc.devRef .tc main_v28)) (W3 m ρ c (Proc.devRef .tc main_v41))
    (W3 m ρ c (Proc.devRef .tc main_v42)) (fun j => (W3 m ρ c (Proc.devRef .tc main_v43) : S1x64.Idx → EReal) (ix2 (0 : Fin 1) j)) = _
  rw [W3_v40, W3_v28, W3_v41, W3_v42, W3_v43, W2_v28, G0_V1, W2_v1, W2_v3, W2_v12, W2_arg5, W2_arg6, W2_arg7]

end Cert.KernelIdeal.HostVal

end
-- ==== Proof.RefSide.lean ====
/-
  The reference's two layers in the form of SageSpec.lean.

  Each layer of the reference is  mean · wlᵀ + b + x · wrᵀ  on whole arrays: two `dot_general`s contracting the 64
  features, the bias broadcast over the nodes, the additions in that order; the first layer is followed by a maximum with
  zero. Read at node `r`, feature `q`, a `dot_general` is the sum over the contracted coordinate `k` of left[r,k] ·
  right[k,q], and the twice-broadcast bias is b[q]: the layer is `Cert.Sage.lin` of its operands. The mean that enters a
  layer is the aggregate of the layer's input (gather at the sources, scatter-add at the destinations) divided by
  max(count, 1) broadcast along the features; the gather and the scatter-adds stay closed.
-/
import proofs.«110972_j88682484727895_1_alg».proof.Proof.Gen.ReferenceIdeal.Read
import proofs.«110972_j88682484727895_1_alg».proof.Proof.SageSpec
import Idealize.ShloMosaic.Lib.Pipeline.Value
import Idealize.ShloMosaic.Lib.ValueIdx
import Idealize.ShloMosaic.PureOps.Ideal.Laws

noncomputable section

open scoped BigOperators

namespace Cert.ReferenceIdeal.Layer

open Cert.ReferenceIdeal Cert.ReferenceIdeal.Gen Cert.ReferenceIdeal.Read
open Idealize.ShloMosaic Idealize.ShloMosaic.ValueIdx

/-- A [100000,64] × [64,64] `dot_general` at node `r`, feature `q`: the sum over the contracted coordinate. -/
theorem dot_apply (y0 : FVec Ideal S100000x64 .f32) (y1 : FVec Ideal S64x64 .f32)
    (r : Fin 100000) (q : Fin 64) :
    Host.dotGeneral (F := Ideal) dot_S100000x64_S64x64_S100000x64_1_0_0_1_n_n none y0 y1 (ix2 r q) = ∑ k : Fin 64, y0 (ix2 r k) * y1 (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k := funext fun a => Fin.ext (by
    match a with
    | ⟨0, _⟩ => exact lhs_main_v24_0 _ _
    | ⟨1, _⟩ => exact (lhs_main_v24_1 _ _).trans hk)
  have er : dot_S100000x64_S64x64_S100000x64_1_0_0_1_n_n.rhsIdx (ix2 r q) ((contrEquiv1 dot_S100000x64_S64x64_S100000x64_1_0_0_1_n_n 64 rfl rfl).symm k) = ix2 k q := funext fun a => Fin.ext (by
    match a with
    | ⟨0, _⟩ => exact (rhs_main_v24_0 _ _).trans hk
    | ⟨1, _⟩ => exact rhs_main_v24_1 _ _)
  rw [el, er]

/-- The bias, made a row and then broadcast over the nodes, at node `r`, feature `q`: b[q]. -/
theorem bias_apply (b : FVec Ideal S64 .f32) (r : Fin 100000) (q : Fin 64) :
    broadcastInDim S100000x64 ![0, 1] bcast_S1x64_S100000x64_0_1 (broadcastInDim S1x64 ![1] bcast_S64_S1x64_1 b) (ix2 r q)
      = b (ix1 q) := by
  rw [broadcastInDim_apply ![0, 1] bcast_S1x64_S100000x64_0_1 _ (ix2 r q) (ix2 (0 : Fin 1) q) (fun a => by
    match a with
    | ⟨0, _⟩ => rfl
    | ⟨1, _⟩ => show q.val = if (64 : Nat) = 1 then 0 else q.val; rw [if_neg (by decide)])]
  exact broadcastInDim_apply ![1] bcast_S64_S1x64_1 b (ix2 (0 : Fin 1) q) (ix1 q) (fun a => by
    match a with
    | ⟨0, _⟩ => show q.val = if (64 : Nat) = 1 then 0 else q.val; rw [if_neg (by decide)])

/-- One layer on whole arrays is the layer of SageSpec.lean. -/
theorem affine_ref (M X : FVec Ideal S100000x64 .f32) (WL WR : FVec Ideal S64x64 .f32)
    (b : FVec Ideal S64 .f32) :
    addf (F := Ideal) (addf (F := Ideal) (Host.dotGeneral (F := Ideal) dot_S100000x64_S64x64_S100000x64_1_0_0_1_n_n none M WL)
        (broadcastInDim S100000x64 ![0, 1] bcast_S1x64_S100000x64_0_1 (broadcastInDim S1x64 ![1] bcast_S64_S1x64_1 b)))
      (Host.dotGeneral (F := Ideal) dot_S100000x64_S64x64_S100000x64_1_0_0_1_n_n none X WR)
      = Cert.Sage.lin M X WL WR (fun j => b (ix1 j)) := by
  funext i
  obtain ⟨r, q, rfl⟩ : ∃ (r : Fin 100000) (q : Fin 64), i = ix2 r q := ⟨i 0, i 1, eq_ix2 i⟩
  rw [addf_apply, addf_apply, dot_apply, dot_apply, bias_apply]
  rfl

/-- The maximum with the zero array is the positive part, entry by entry. -/
theorem relu_ref (Y : FVec Ideal S100000x64 .f32) :
    maximumf (F := Ideal) Y (broadcastInDim S100000x64 ![] bcast_S_S100000x64 (constant (F := Ideal) S_ .f32 0x00000000#32)) = fun i => max (Y i) 0 := by
  funext i
  show max (Y i) (Ideal.ofBits .f32 0x00000000#32) = _
  rw [Ideal.ofBits_zero_f32]

/-- The aggregate of a node-feature array `z` along the edges `e`. -/
def aggR (e : IVec S2x1250000 32) (z : FVec Ideal S100000x64 .f32) :
    FVec Ideal S100000x64 .f32 :=
  Host.scatterAdd (F := Ideal) scatter_S100000x64_S1250000x1_S1250000x64_1_0_0_1 (val_main_v11 (F := Ideal)) (val_main_v12 (F := Ideal) e)
    (Host.gather gather_S100000x64_S1250000x1_S1250000x64_1_0_n_n_0_1_164 z (val_main_v9 (F := Ideal) e))

/-- The first layer's mean: the aggregate of the features over the broadcast divisor. -/
theorem mean1_eq (x0 : FVec Ideal S100000x64 .f32) (x1 : IVec S2x1250000 32) :
    val_main_v22 (F := Ideal) x0 x1 = Host.divf (F := Ideal) (aggR x1 x0) (val_main_v21 (F := Ideal) x1) := rfl

/-- The first layer, activation included. -/
theorem layer1_eq (x0 : FVec Ideal S100000x64 .f32) (x1 : IVec S2x1250000 32)
    (x2 : FVec Ideal S64x64 .f32) (x3 : FVec Ideal S64 .f32) (x4 : FVec Ideal S64x64 .f32) :
    val_main_v31 (F := Ideal) x0 x1 x2 x3 x4
      = Cert.Sage.linRelu (val_main_v22 (F := Ideal) x0 x1) x0 (val_main_v23 (F := Ideal) x2) (val_main_v28 (F := Ideal) x4) (fun j => x3 (ix1 j)) := by
  unfold val_main_v31 val_main_v30 val_main_v27 val_main_v24 val_main_v29 val_main_v26 val_main_v25 val_main_call0_v0 val_main_call0_cst
  rw [affine_ref, relu_ref]
  rfl

/-- The second layer's mean: the aggregate of the first layer's result over the same divisor. -/
theorem mean2_eq (x0 : FVec Ideal S100000x64 .f32) (x1 : IVec S2x1250000 32)
    (x2 : FVec Ideal S64x64 .f32) (x3 : FVec Ideal S64 .f32) (x4 : FVec Ideal S64x64 .f32) :
    val_main_v50 (F := Ideal) x0 x1 x2 x3 x4
      = Host.divf (F := Ideal) (aggR x1 (val_main_v31 (F := Ideal) x0 x1 x2 x3 x4)) (val_main_v21 (F := Ideal) x1) := rfl

/-- The second layer. -/
theorem layer2_eq (x0 : FVec Ideal S100000x64 .f32) (x1 : IVec S2x1250000 32)
    (x2 : FVec Ideal S64x64 .f32) (x3 : FVec Ideal S64 .f32) (x4 x5 : FVec Ideal S64x64 .f32)
    (x6 : FVec Ideal S64 .f32) (x7 : FVec Ideal S64x64 .f32) :
    val_main_v58 (F := Ideal) x0 x1 x2 x3 x4 x5 x6 x7
      = Cert.Sage.lin (val_main_v50 (F := Ideal) x0 x1 x2 x3 x4) (val_main_v31 (F := Ideal) x0 x1 x2 x3 x4)
          (val_main_v51 (F := Ideal) x5) (val_main_v56 (F := Ideal) x7) (fun j => x6 (ix1 j)) := by
  unfold val_main_v58 val_main_v55 val_main_v52 val_main_v57 val_main_v54 val_main_v53
  rw [affine_ref]

end Cert.ReferenceIdeal.Layer

end
-- ==== Proof.Bridge.lean ====
/-
  The kernel's result and the reference's are one function of the arguments.

  Both programs compute two layers of the same graph convolution over the same gather and scatter-adds. They differ in
  how the neighbour mean is formed — the kernel multiplies the aggregate by the broadcast reciprocal 1 / max(count, 1), the
  reference divides it by the broadcast max(count, 1): equal on the extended reals because max(count, 1) is never zero
  (SageSpec.lean) — and in how the bias reaches the layer (a 1 × 64 row on one side, a broadcast on the other: the same
  entry b[j]). Everything else is the same operation applied to the same operands, so once the first layer's results
  agree the second layer's do.
-/
import proofs.«110972_j88682484727895_1_alg».proof.Proof.KHost
import proofs.«110972_j88682484727895_1_alg».proof.Proof.RefSide
import Idealize.ShloMosaic.Lib.ValueLayout

noncomputable section

namespace Cert.Bridge

open Idealize.ShloMosaic Idealize.ShloMosaic.ValueIdx

/-- The aggregate is the same closed term in both programs. -/
theorem agg_eq (e : IVec Cert.KernelIdeal.S2x1250000 32) (z : FVec Ideal Cert.KernelIdeal.S100000x64 .f32) :
    Cert.KernelIdeal.HostVal.aggOf (Cert.KernelIdeal.HostVal.srcIdx e) (Cert.KernelIdeal.HostVal.dstIdx e) z = Cert.ReferenceIdeal.Layer.aggR e z := rfl

/-- A per-node vector made a column and broadcast along the features reads, at node `r` and any feature, its entry `r`. -/
theorem col_bcast_apply (v : FVec Ideal Cert.KernelIdeal.S100000 .f32) (i : Cert.KernelIdeal.S100000x64.Idx) :
    broadcastInDim Cert.KernelIdeal.S100000x64 ![0, 1] Cert.KernelIdeal.Facts₀.bcast_S100000x1_S100000x64_0_1
        (broadcastInDim Cert.KernelIdeal.S100000x1 ![0] Cert.KernelIdeal.Facts₀.bcast_S100000_S100000x1_0 v) i
      = v (ix1 (i 0)) := by
  obtain ⟨r, q, rfl⟩ : ∃ (r : Fin 100000) (q : Fin 64), i = ix2 r q := ⟨i 0, i 1, eq_ix2 i⟩
  rw [broadcastInDim_apply ![0, 1] Cert.KernelIdeal.Facts₀.bcast_S100000x1_S100000x64_0_1 _ (ix2 r q) (ix2 r (0 : Fin 1)) (fun a => by
    match a with
    | ⟨0, _⟩ => show r.val = if (100000 : Nat) = 1 then 0 else r.val; rw [if_neg (by decide)]
    | ⟨1, _⟩ => rfl)]
  exact broadcastInDim_apply ![0] Cert.KernelIdeal.Facts₀.bcast_S100000_S100000x1_0 v (ix2 r (0 : Fin 1)) (ix1 r) (fun a => by
    match a with
    | ⟨0, _⟩ => show r.val = if (100000 : Nat) = 1 then 0 else r.val; rw [if_neg (by decide)])

/-- The vector of ones is one at every node. -/
theorem ones_apply (r : Cert.KernelIdeal.S100000.Idx) : Cert.KernelIdeal.HostVal.onesN r = 1 := by
  show Ideal.ofBits .f32 0x3F800000#32 = 1
  exact Ideal.ofBits_one_f32

/-- The neighbour mean: the kernel's product with the reciprocal is the reference's quotient. -/
theorem mean_eq (e : IVec Cert.KernelIdeal.S2x1250000 32) (z : FVec Ideal Cert.KernelIdeal.S100000x64 .f32) :
    Cert.KernelIdeal.HostVal.meanOf (Cert.KernelIdeal.HostVal.srcIdx e) (Cert.KernelIdeal.HostVal.dstIdx e) (Cert.KernelIdeal.HostVal.invCol (Cert.KernelIdeal.HostVal.dstIdx e)) z
      = Host.divf (F := Ideal) (Cert.ReferenceIdeal.Layer.aggR e z) (Cert.ReferenceIdeal.Read.val_main_v21 (F := Ideal) e) := by
  unfold Cert.KernelIdeal.HostVal.meanOf Cert.KernelIdeal.HostVal.invCol
  rw [agg_eq]
  have h := Cert.Sage.mean_mul_eq_div
    (fun v => broadcastInDim Cert.KernelIdeal.S100000x64 ![0, 1] Cert.KernelIdeal.Facts₀.bcast_S100000x1_S100000x64_0_1
      (broadcastInDim Cert.KernelIdeal.S100000x1 ![0] Cert.KernelIdeal.Facts₀.bcast_S100000_S100000x1_0 v))
    (fun i => ix1 (i 0)) (fun v i => col_bcast_apply v i) (Cert.ReferenceIdeal.Layer.aggR e z) Cert.KernelIdeal.HostVal.onesN (Cert.KernelIdeal.HostVal.cnt (Cert.KernelIdeal.HostVal.dstIdx e)) ones_apply
  refine h.trans ?_
  refine congrArg (Host.divf (F := Ideal) (Cert.ReferenceIdeal.Layer.aggR e z)) ?_
  rfl

/-- A bias vector made a row reads, at feature `j`, its entry `j`. -/
theorem row_eq (b : FVec Ideal Cert.KernelIdeal.S64 .f32) :
    (fun j : Fin 64 => Cert.KernelIdeal.HostVal.rowOf b (ix2 (0 : Fin 1) j)) = fun j => b (ix1 j) := by
  funext j
  unfold Cert.KernelIdeal.HostVal.rowOf
  exact shapeCast_a_1a_apply b _ (0 : Fin 1) j

/-- The transposed weights are the same term in both programs. -/
theorem tr_eq23 (w : FVec Ideal Cert.KernelIdeal.S64x64 .f32) : Cert.KernelIdeal.HostVal.tr w = Cert.ReferenceIdeal.Read.val_main_v23 (F := Ideal) w := rfl
theorem tr_eq28 (w : FVec Ideal Cert.KernelIdeal.S64x64 .f32) : Cert.KernelIdeal.HostVal.tr w = Cert.ReferenceIdeal.Read.val_main_v28 (F := Ideal) w := rfl
theorem tr_eq51 (w : FVec Ideal Cert.KernelIdeal.S64x64 .f32) : Cert.KernelIdeal.HostVal.tr w = Cert.ReferenceIdeal.Read.val_main_v51 (F := Ideal) w := rfl
theorem tr_eq56 (w : FVec Ideal Cert.KernelIdeal.S64x64 .f32) : Cert.KernelIdeal.HostVal.tr w = Cert.ReferenceIdeal.Read.val_main_v56 (F := Ideal) w := rfl

/-- The first layer's results agree. -/
theorem hidden_eq (a0 : FVec Ideal Cert.KernelIdeal.S100000x64 .f32) (a1 : IVec Cert.KernelIdeal.S2x1250000 32) (a2 : FVec Ideal Cert.KernelIdeal.S64x64 .f32)
    (a3 : FVec Ideal Cert.KernelIdeal.S64 .f32) (a4 : FVec Ideal Cert.KernelIdeal.S64x64 .f32) :
    Cert.KernelIdeal.HostVal.hidden a0 a1 a2 a3 a4 = Cert.ReferenceIdeal.Read.val_main_v31 (F := Ideal) a0 a1 a2 a3 a4 := by
  rw [Cert.ReferenceIdeal.Layer.layer1_eq, Cert.ReferenceIdeal.Layer.mean1_eq]
  unfold Cert.KernelIdeal.HostVal.hidden
  rw [mean_eq, row_eq, tr_eq23, tr_eq28]

/-- The programs' results agree. -/
theorem out_eq (a0 : FVec Ideal Cert.KernelIdeal.S100000x64 .f32) (a1 : IVec Cert.KernelIdeal.S2x1250000 32) (a2 : FVec Ideal Cert.KernelIdeal.S64x64 .f32)
    (a3 : FVec Ideal Cert.KernelIdeal.S64 .f32) (a4 a5 : FVec Ideal Cert.KernelIdeal.S64x64 .f32) (a6 : FVec Ideal Cert.KernelIdeal.S64 .f32)
    (a7 : FVec Ideal Cert.KernelIdeal.S64x64 .f32) :
    Cert.KernelIdeal.HostVal.out a0 a1 a2 a3 a4 a5 a6 a7 = Cert.ReferenceIdeal.Read.val_main_v58 (F := Ideal) a0 a1 a2 a3 a4 a5 a6 a7 := by
  rw [Cert.ReferenceIdeal.Layer.layer2_eq, Cert.ReferenceIdeal.Layer.mean2_eq]
  unfold Cert.KernelIdeal.HostVal.out
  rw [hidden_eq, mean_eq, row_eq, tr_eq51, tr_eq56]

end Cert.Bridge

end
-- ==== Proof.lean ====
/-
  The certificate of a two-layer mean-aggregating graph convolution (100000 nodes, 64 features, 1250000 edges): a kernel
  program whose dense half — mean · wlᵀ + b + x · wrᵀ per layer, the first layer's positive part — runs in two
  pallas_calls over twenty blocks of 5000 nodes, against the plain array program.

  Both programs gather the features at the edge sources and scatter-add them at the destinations, count the in-degrees the
  same way, and apply the same two layers. They differ only in the mean: the kernel multiplies the aggregate by
  1 / max(count, 1), the reference divides it by max(count, 1). On the extended reals the two are equal at every aggregate,
  because a quotient by a nonzero `c` is the product with `c⁻¹` and max(count, 1) ≥ 1 is never zero; no finiteness of the
  inputs is used. The matrix products are plain sums over the 64 contracted features on both sides, the rounding to bf16
  inside the kernel is the identity, and the block-by-block result of each call is the whole-array layer because every
  output row depends on the same row of the row-blocked operands only.

  The pieces: SageSpec (the layer at an entry; the law), KBody (a kernel body's stored value at an entry), KRegion0 /
  KRegion1 (a call's result array as one function of its entry arrays), KRun (the run with the result array named), KHost
  (the host operations between the calls, read as pure terms), RefSide (the reference's layers in the same form), Bridge
  (the two results are one function). The frames of the two kernel programs and the reference's run are the generated ones;
  the ideal pass rewrote nothing, so `preserves` is `True`.
-/
import proofs.«110972_j88682484727895_1_alg».proof.Defs
import proofs.«110972_j88682484727895_1_alg».proof.Proof.Gen.Kernel
import proofs.«110972_j88682484727895_1_alg».proof.Proof.Gen.Kernel.Skeleton
import proofs.«110972_j88682484727895_1_alg».proof.Proof.Gen.Kernel.Launch
import proofs.«110972_j88682484727895_1_alg».proof.Proof.Gen.Kernel.Points
import proofs.«110972_j88682484727895_1_alg».proof.Proof.Gen.Kernel.Frame
import proofs.«110972_j88682484727895_1_alg».proof.Proof.Gen.KernelIdeal
import proofs.«110972_j88682484727895_1_alg».proof.Proof.Gen.KernelIdeal.Skeleton
import proofs.«110972_j88682484727895_1_alg».proof.Proof.Gen.KernelIdeal.Launch
import proofs.«110972_j88682484727895_1_alg».proof.Proof.Gen.KernelIdeal.Points
import proofs.«110972_j88682484727895_1_alg».proof.Proof.Gen.KernelIdeal.Frame
import proofs.«110972_j88682484727895_1_alg».proof.Proof.Gen.ReferenceIdeal
import proofs.«110972_j88682484727895_1_alg».proof.Proof.Gen.Pre_finite_inputs
import proofs.«110972_j88682484727895_1_alg».proof.Proof.Gen.ReferenceIdeal.Run
import proofs.«110972_j88682484727895_1_alg».proof.Proof.Gen.ReferenceIdeal.Read
import proofs.«110972_j88682484727895_1_alg».proof.Proof.KRun
import proofs.«110972_j88682484727895_1_alg».proof.Proof.KHost
import proofs.«110972_j88682484727895_1_alg».proof.Proof.RefSide
import proofs.«110972_j88682484727895_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the two layers of the arguments: the kernel's by its run, the two calls'
    result arrays and the host operations between them; the reference's by its run; one function by `Bridge.out_eq`. -/
theorem algebraic : Cert.algebraic_KernelIdeal_ReferenceIdeal := by
  intro m ρ m' ρ' _ hagree
  refine ⟨fun c => Cert.KernelIdeal.HostVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostVal.W4_v44 m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, e0, e1, e2, e3, e4, e5, e6, e7]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
